-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S768 : S_.BroadcastsInDim S768 (![] : Fin 0 → Fin S768.rank)
  reducesTo_S768_S_d0 : S768.ReducesTo [0] S_
  bcast_S_S768x3072 : S_.BroadcastsInDim S768x3072 (![] : Fin 0 → Fin S768x3072.rank)
  reducesTo_S768x3072_S_d0_1 : S768x3072.ReducesTo [0, 1] S_
  bcast_S_S3072 : S_.BroadcastsInDim S3072 (![] : Fin 0 → Fin S3072.rank)
  reducesTo_S3072_S_d0 : S3072.ReducesTo [0] S_
  bcast_S_S3072x768 : S_.BroadcastsInDim S3072x768 (![] : Fin 0 → Fin S3072x768.rank)
  reducesTo_S3072x768_S_d0_1 : S3072x768.ReducesTo [0, 1] S_

variable [Facts]

def fn_part1 {F : FTy → Type} [FloatOps F] (main_arg4 : FVec F S3072x768 .f32) (main_arg5 : FVec F S768 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S3072x768 .f32 := Host.absf main_arg4
  let main_cst_6 : FVec F S_ .f32 := constant S_ .f32 0x7F800000#32
  let main_v20 : FVec F S3072x768 .f32 := broadcastInDim S3072x768 ![] bcast_S_S3072x768 main_cst_6
  let main_v21 : IVec S3072x768 1 := cmpf .olt main_v19 main_v20
  let main_c_7 : IVec S_ 1 := constantI S_ 1 1#1
  let main_v22 : IVec S_ 1 := (fun x v => Host.reduce IntOp.andi x v reducesTo_S3072x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S8x2048x768 .f32) (main_arg1 : FVec F S768 .f32) (main_arg2 : FVec F S768x3072 .f32) (main_arg3 : FVec F S3072 .f32) (main_arg4 : FVec F S3072x768 .f32) (main_arg5 : FVec F S768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768x3072 .f32 := Host.absf main_arg2
  let main_cst_2 : FVec F S_ .f32 := constant S_ .f32 0x7F800000#32
  let main_v10 : FVec F S768x3072 .f32 := broadcastInDim S768x3072 ![] bcast_S_S768x3072 main_cst_2
  let main_v11 : IVec S768x3072 1 := cmpf .olt main_v9 main_v10
  let main_c_3 : IVec S_ 1 := constantI S_ 1 1#1
  let main_v12 : IVec S_ 1 := (fun x v => Host.reduce IntOp.andi x v reducesTo_S768x3072_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_v13 main_v16
-- ==== Kernel.lean ====
abbrev S8x2048x768 : Shape := ⟨3, ![8, 2048, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S16384x768 : Shape := ⟨2, ![16384, 768]⟩
abbrev S1x768 : Shape := ⟨2, ![1, 768]⟩
abbrev S1x3072 : Shape := ⟨2, ![1, 3072]⟩
abbrev S512x768 : Shape := ⟨2, ![512, 768]⟩
abbrev S512x3072 : Shape := ⟨2, ![512, 3072]⟩

abbrev nBuf : Space → Nat
  | .hbm => 15
  | .vmem => 9
  | .smem => 0
  | _ => 0

abbrev bufTy : (tb : Table) → Fin (tcTables nBuf tb) → BufTy
  | .hbm, ⟨0, _⟩ => ⟨S8x2048x768, .f32⟩
  | .hbm, ⟨1, _⟩ => ⟨S768, .f32⟩
  | .hbm, ⟨2, _⟩ => ⟨S768x3072, .f32⟩
  | .hbm, ⟨3, _⟩ => ⟨S3072, .f32⟩
  | .hbm, ⟨4, _⟩ => ⟨S3072x768, .f32⟩
  | .hbm, ⟨5, _⟩ => ⟨S768, .f32⟩
  | .hbm, ⟨6, _⟩ => ⟨S16384x768, .f32⟩
  | .hbm, ⟨7, _⟩ => ⟨S768, .f32⟩
  | .hbm, ⟨8, _⟩ => ⟨S1x768, .f32⟩
  | .hbm, ⟨9, _⟩ => ⟨S768x3072, .bf16⟩
  | .hbm, ⟨10, _⟩ => ⟨S3072x768, .bf16⟩
  | .hbm, ⟨11, _⟩ => ⟨S1x3072, .f32⟩
  | .hbm, ⟨12, _⟩ => ⟨S1x768, .f32⟩
  | .hbm, ⟨13, _⟩ => ⟨S16384x768, .f32⟩
  | .hbm, ⟨14, _⟩ => ⟨S8x2048x768, .f32⟩
  | .local _ .vmem, ⟨0, _⟩ => ⟨S512x768, .f32⟩
  | .local _ .vmem, ⟨1, _⟩ => ⟨S512x768, .f32⟩
  | .local _ .vmem, ⟨2, _⟩ => ⟨S1x768, .f32⟩
  | .local _ .vmem, ⟨3, _⟩ => ⟨S768x3072, .bf16⟩
  | .local _ .vmem, ⟨4, _⟩ => ⟨S1x3072, .f32⟩
  | .local _ .vmem, ⟨5, _⟩ => ⟨S3072x768, .bf16⟩
  | .local _ .vmem, ⟨6, _⟩ => ⟨S1x768, .f32⟩
  | .local _ .vmem, ⟨7, _⟩ => ⟨S512x768, .f32⟩
  | .local _ .vmem, ⟨8, _⟩ => ⟨S512x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x2048x768_S16384x768 : S8x2048x768.ShapeCasts S16384x768
  shapeCasts_S768_S1x768 : S768.ShapeCasts S1x768
  bitsLt_bf16_f32 : FTy.bits .bf16 < FTy.bits .f32
  shapeCasts_S3072_S1x3072 : S3072.ShapeCasts S1x3072
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  inb_S768x3072_S768x3072_0_0 : ∀ a, (![0, 0] : Fin 2 → Nat) a + S768x3072.size a ≤ S768x3072.size a
  h_S768x3072 : 0 < S768x3072.numel
  shapeCasts_S768x3072_S768x3072 : S768x3072.ShapeCasts S768x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  shapeCasts_S16384x768_S8x2048x768 : S16384x768.ShapeCasts S8x2048x768
  dot_S512x768_S768x3072_S512x3072_1_0_0_1_n_n_wf : DotDims.WF S512x768 S768x3072 S512x3072 [1] [0] [0] [1] [] []
  dot_S512x3072_S3072x768_S512x768_1_0_0_1_n_n_wf : DotDims.WF S512x3072 S3072x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S16384x768.size a
  hwx0_0 : ∀ i : grid0.Coords, EltTy.bits .f32 = 32 ∨ (Rect.block (s := S16384x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x768.size a ≤ S1x768.size a
  hwx0_1 : ∀ i : grid0.Coords, EltTy.bits .f32 = 32 ∨ (Rect.block (s := S1x768) S1x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x3072.size a ≤ S768x3072.size a
  hwx0_2 : ∀ i : grid0.Coords, EltTy.bits .bf16 = 32 ∨ (Rect.block (s := S768x3072) S768x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3072.size a ≤ S1x3072.size a
  hwx0_3 : ∀ i : grid0.Coords, EltTy.bits .f32 = 32 ∨ (Rect.block (s := S1x3072) S1x3072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072x768.size a ≤ S3072x768.size a
  hwx0_4 : ∀ i : grid0.Coords, EltTy.bits .bf16 = 32 ∨ (Rect.block (s := S3072x768) S3072x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x768.size a ≤ S16384x768.size a
  hwx0_6 : ∀ i : grid0.Coords, EltTy.bits .f32 = 32 ∨ (Rect.block (s := S16384x768) S512x768.size (cc0_transform_6 i) (hinb0_6 i)).WholeWords (EltTy.packing .f32)

variable [Facts₀]

def dot_S512x768_S768x3072_S512x3072_1_0_0_1_n_n : DotDims S512x768 S768x3072 S512x3072 where
  lhsContracting := [1]
  rhsContracting := [0]
  lhsNonContracting := [0]
  rhsNonContracting := [1]
  lhsBatch := []
  rhsBatch := []
  wf := dot_S512x768_S768x3072_S512x3072_1_0_0_1_n_n_wf
def dot_S512x3072_S3072x768_S512x768_1_0_0_1_n_n : DotDims S512x3072 S3072x768 S512x768 where
  lhsContracting := [1]
  rhsContracting := [0]
  lhsNonContracting := [0]
  rhsNonContracting := [1]
  lhsBatch := []
  rhsBatch := []
  wf := dot_S512x3072_S3072x768_S512x768_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S3072x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S512x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x768 : Shape := ⟨3, ![8, 2048, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S1x1x768 : Shape := ⟨3, ![1, 1, 768]⟩
abbrev S8x2048x3072 : Shape := ⟨3, ![8, 2048, 3072]⟩
abbrev S1x1x3072 : Shape := ⟨3, ![1, 1, 3072]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S768, .f32⟩
  | .hbm, ⟨2, _⟩ => ⟨S768x3072, .f32⟩
  | .hbm, ⟨3, _⟩ => ⟨S3072, .f32⟩
  | .hbm, ⟨4, _⟩ => ⟨S3072x768, .f32⟩
  | .hbm, ⟨5, _⟩ => ⟨S768, .f32⟩
  | .hbm, ⟨6, _⟩ => ⟨S8x2048x768, .f32⟩
  | .hbm, ⟨7, _⟩ => ⟨S768, .f32⟩
  | .hbm, ⟨8, _⟩ => ⟨S1x1x768, .f32⟩
  | .hbm, ⟨9, _⟩ => ⟨S8x2048x768, .f32⟩
  | .hbm, ⟨10, _⟩ => ⟨S8x2048x768, .f32⟩
  | .hbm, ⟨11, _⟩ => ⟨S8x2048x3072, .f32⟩
  | .hbm, ⟨12, _⟩ => ⟨S1x1x3072, .f32⟩
  | .hbm, ⟨13, _⟩ => ⟨S8x2048x3072, .f32⟩
  | .hbm, ⟨14, _⟩ => ⟨S8x2048x3072, .f32⟩
  | .hbm, ⟨15, _⟩ => ⟨S_, .f32⟩
  | .hbm, ⟨16, _⟩ => ⟨S8x2048x3072, .f32⟩
  | .hbm, ⟨17, _⟩ => ⟨S8x2048x3072, .f32⟩
  | .hbm, ⟨18, _⟩ => ⟨S8x2048x768, .f32⟩
  | .hbm, ⟨19, _⟩ => ⟨S1x1x768, .f32⟩
  | .hbm, ⟨20, _⟩ => ⟨S8x2048x768, .f32⟩
  | .hbm, ⟨21, _⟩ => ⟨S8x2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  bcast_S3072_S1x1x3072_2 : S3072.BroadcastsInDim S1x1x3072 (![2] : Fin 1 → Fin S1x1x3072.rank)
  bcast_S1x1x3072_S8x2048x3072_0_1_2 : S1x1x3072.BroadcastsInDim S8x2048x3072 (![0, 1, 2] : Fin 3 → Fin S8x2048x3072.rank)
  bcast_S_S8x2048x3072 : S_.BroadcastsInDim S8x2048x3072 (![] : Fin 0 → Fin S8x2048x3072.rank)
  dot_S8x2048x768_S768x3072_S8x2048x3072_2_0_01_1_n_n_wf : DotDims.WF S8x2048x768 S768x3072 S8x2048x3072 [2] [0] [0, 1] [1] [] []
  dot_S8x2048x3072_S3072x768_S8x2048x768_2_0_01_1_n_n_wf : DotDims.WF S8x2048x3072 S3072x768 S8x2048x768 [2] [0] [0, 1] [1] [] []

variable [Facts₀]

def dot_S8x2048x768_S768x3072_S8x2048x3072_2_0_01_1_n_n : DotDims S8x2048x768 S768x3072 S8x2048x3072 where
  lhsContracting := [2]
  rhsContracting := [0]
  lhsNonContracting := [0, 1]
  rhsNonContracting := [1]
  lhsBatch := []
  rhsBatch := []
  wf := dot_S8x2048x768_S768x3072_S8x2048x3072_2_0_01_1_n_n_wf
def dot_S8x2048x3072_S3072x768_S8x2048x768_2_0_01_1_n_n : DotDims S8x2048x3072 S3072x768 S8x2048x768 where
  lhsContracting := [2]
  rhsContracting := [0]
  lhsNonContracting := [0, 1]
  rhsNonContracting := [1]
  lhsBatch := []
  rhsBatch := []
  wf := dot_S8x2048x3072_S3072x768_S8x2048x768_2_0_01_1_n_n_wf

class Facts : Prop extends Facts₀ where

variable [Facts]
-- ==== Proof.Spec.lean ====
/-
  The mathematics of the block, one token at a time.

  A token is a row of 768 activations `a q`.  The first dense layer sends it to 3072 hidden
  features, `h f = max (∑ q, a q · W1[q, f] + c1 f) 0` (the rectifier), and the second dense layer
  sends those to 768 outputs, `out e = ∑ f, h f · W2[f, e] + c2 e`.  Every operation is the exact
  one on the extended reals; the sums are finite sums of a commutative monoid, so their order and
  grouping carry no meaning.  The rectifier's zero is kept as the float word it is printed as: it
  is the same word in both programs and is never evaluated.

  For the whole layer the activations of token `(b, s)` are `cos (x[b, s, q]) · cos (θ[q])`.
-/
import Idealize.ShloMosaic.PureOps.Ideal
import Idealize.ShloMosaic.PureOps.Ideal.Laws
import Idealize.ShloMosaic.Lib.ValueIdx

noncomputable section

namespace Cert.Ffn

open Idealize.ShloMosaic Idealize.ShloMosaic.ValueIdx

/-- The zero the rectifier compares with, as the float word both programs print. -/
abbrev reluFloor : EReal := Ideal.ofBits .f32 0x00000000#32

/-- One hidden feature of one token: the rectified affine image of its activations. -/
def rectified (a : Fin 768 → EReal) (W1 : (⟨2, ![768, 3072]⟩ : Shape).Idx → EReal) (c1 : Fin 3072 → EReal) (f : Fin 3072) : EReal :=
  max ((∑ q : Fin 768, a q * W1 (ix2 q f)) + c1 f) reluFloor

/-- One output feature of one token: the affine image of its hidden features. -/
def tokenOut (a : Fin 768 → EReal) (W1 : (⟨2, ![768, 3072]⟩ : Shape).Idx → EReal) (c1 : Fin 3072 → EReal)
    (W2 : (⟨2, ![3072, 768]⟩ : Shape).Idx → EReal) (c2 : Fin 768 → EReal) (e : Fin 768) : EReal :=
  (∑ f : Fin 3072, rectified a W1 c1 f * W2 (ix2 f e)) + c2 e

/-- The activations of token `(b, s)`: the cosine of its inputs times the cosine of the angles. -/
def act (x : (⟨3, ![8, 2048, 768]⟩ : Shape).Idx → EReal) (θ : (⟨1, ![768]⟩ : Shape).Idx → EReal) (b : Fin 8) (s : Fin 2048) (q : Fin 768) : EReal :=
  Ideal.cos (x (ix3 b s q)) * Ideal.cos (θ (ix1 q))

/-- The whole layer: output feature `e` of token `(b, s)`, for every index `(b, s, e)`. -/
def layer (x : (⟨3, ![8, 2048, 768]⟩ : Shape).Idx → EReal) (θ : (⟨1, ![768]⟩ : Shape).Idx → EReal)
    (W1 : (⟨2, ![768, 3072]⟩ : Shape).Idx → EReal) (b1 : (⟨1, ![3072]⟩ : Shape).Idx → EReal)
    (W2 : (⟨2, ![3072, 768]⟩ : Shape).Idx → EReal) (b2 : (⟨1, ![768]⟩ : Shape).Idx → EReal) :
    (⟨3, ![8, 2048, 768]⟩ : Shape).Idx → EReal := fun i =>
  tokenOut (act x θ (i 0) (i 1)) W1 (fun f => b1 (ix1 f)) W2 (fun e => b2 (ix1 e)) (i 2)

/-! ## The same layer with the tokens laid out as 16384 rows

  The kernel works on the input flattened to 16384 rows of 768 features, row `r = b · 2048 + s`
  being token `(b, s)`, and on arrays prepared for it: the cosines of the angles as one row, the
  biases as one row each. -/

/-- The batch a flattened row belongs to. -/
def tokB (r : Fin 16384) : Fin 8 := ⟨r.val / 2048, by have := r.isLt; omega⟩
/-- The position of a flattened row inside its batch. -/
def tokS (r : Fin 16384) : Fin 2048 := ⟨r.val % 2048, Nat.mod_lt _ (by decide)⟩
/-- The flattened row of token `(b, s)`. -/
def rowOf (b : Fin 8) (s : Fin 2048) : Fin 16384 := ⟨b.val * 2048 + s.val, by have := b.isLt; have := s.isLt; omega⟩

theorem tokB_rowOf (b : Fin 8) (s : Fin 2048) : tokB (rowOf b s) = b :=
  Fin.ext (by show (b.val * 2048 + s.val) / 2048 = b.val; have := s.isLt; omega)
theorem tokS_rowOf (b : Fin 8) (s : Fin 2048) : tokS (rowOf b s) = s :=
  Fin.ext (by show (b.val * 2048 + s.val) % 2048 = s.val; have := s.isLt; omega)

/-- The layer over prepared two-dimensional arrays: rows of inputs `X`, the row of cosines `C`,
    the weights, and the bias rows `B1`, `B2`. -/
def prepared (X : (⟨2, ![16384, 768]⟩ : Shape).Idx → EReal) (C : (⟨2, ![1, 768]⟩ : Shape).Idx → EReal)
    (W1 : (⟨2, ![768, 3072]⟩ : Shape).Idx → EReal) (B1 : (⟨2, ![1, 3072]⟩ : Shape).Idx → EReal)
    (W2 : (⟨2, ![3072, 768]⟩ : Shape).Idx → EReal) (B2 : (⟨2, ![1, 768]⟩ : Shape).Idx → EReal)
    (r : Fin 16384) (e : Fin 768) : EReal :=
  tokenOut (fun q => Ideal.cos (X (ix2 r q)) * C (ix2 (0 : Fin 1) q)) W1 (fun f => B1 (ix2 (0 : Fin 1) f)) W2
    (fun e' => B2 (ix2 (0 : Fin 1) e')) e

/-- The layer of the argument arrays, read at a flattened row and a feature. -/
def flat (x : (⟨3, ![8, 2048, 768]⟩ : Shape).Idx → EReal) (θ : (⟨1, ![768]⟩ : Shape).Idx → EReal)
    (W1 : (⟨2, ![768, 3072]⟩ : Shape).Idx → EReal) (b1 : (⟨1, ![3072]⟩ : Shape).Idx → EReal)
    (W2 : (⟨2, ![3072, 768]⟩ : Shape).Idx → EReal) (b2 : (⟨1, ![768]⟩ : Shape).Idx → EReal)
    (r : Fin 16384) (e : Fin 768) : EReal :=
  tokenOut (act x θ (tokB r) (tokS r)) W1 (fun f => b1 (ix1 f)) W2 (fun e' => b2 (ix1 e')) e

/-- Token `(b, s)` of the layer is row `b · 2048 + s` of the flattened one. -/
theorem layer_eq_flat (x : (⟨3, ![8, 2048, 768]⟩ : Shape).Idx → EReal) (θ : (⟨1, ![768]⟩ : Shape).Idx → EReal)
    (W1 : (⟨2, ![768, 3072]⟩ : Shape).Idx → EReal) (b1 : (⟨1, ![3072]⟩ : Shape).Idx → EReal)
    (W2 : (⟨2, ![3072, 768]⟩ : Shape).Idx → EReal) (b2 : (⟨1, ![768]⟩ : Shape).Idx → EReal)
    (b : Fin 8) (s : Fin 2048) (e : Fin 768) :
    layer x θ W1 b1 W2 b2 (ix3 b s e) = flat x θ W1 b1 W2 b2 (rowOf b s) e := by
  unfold layer flat
  rw [tokB_rowOf, tokS_rowOf]

/-- If the prepared arrays are the argument arrays' rearrangements — row `r` of `X` is token
    `(tokB r, tokS r)` of `x`, `C` holds the cosines of `θ`, the bias rows hold the biases —
    the prepared layer is the layer. -/
theorem prepared_eq_flat (X : (⟨2, ![16384, 768]⟩ : Shape).Idx → EReal) (C : (⟨2, ![1, 768]⟩ : Shape).Idx → EReal)
    (W1 : (⟨2, ![768, 3072]⟩ : Shape).Idx → EReal) (B1 : (⟨2, ![1, 3072]⟩ : Shape).Idx → EReal)
    (W2 : (⟨2, ![3072, 768]⟩ : Shape).Idx → EReal) (B2 : (⟨2, ![1, 768]⟩ : Shape).Idx → EReal)
    (x : (⟨3, ![8, 2048, 768]⟩ : Shape).Idx → EReal) (θ : (⟨1, ![768]⟩ : Shape).Idx → EReal)
    (b1 : (⟨1, ![3072]⟩ : Shape).Idx → EReal) (b2 : (⟨1, ![768]⟩ : Shape).Idx → EReal)
    (hX : ∀ (r : Fin 16384) (q : Fin 768), X (ix2 r q) = x (ix3 (tokB r) (tokS r) q))
    (hC : ∀ q : Fin 768, C (ix2 (0 : Fin 1) q) = Ideal.cos (θ (ix1 q)))
    (hB1 : ∀ f : Fin 3072, B1 (ix2 (0 : Fin 1) f) = b1 (ix1 f))
    (hB2 : ∀ e : Fin 768, B2 (ix2 (0 : Fin 1) e) = b2 (ix1 e))
    (r : Fin 16384) (e : Fin 768) :
    prepared X C W1 B1 W2 B2 r e = flat x θ W1 b1 W2 b2 r e := by
  unfold prepared flat
  have ha : (fun q => Ideal.cos (X (ix2 r q)) * C (ix2 (0 : Fin 1) q)) = act x θ (tokB r) (tokS r) :=
    funext fun q => by unfold act; rw [hX, hC]
  rw [ha, funext hB1, funext hB2]

end Cert.Ffn

end
-- ==== Proof.Payload.lean ====
/-
  What the kernel body stores, read at one index.

  The body loads a block of 512 token rows `x0`, the row of cosines `x1`, the two weight matrices
  `x2`, `x4` and the two bias rows `x3`, `x5`, and stores one value: at row `p` and column `e`
  it is the token function of the row's activations `cos (x0[p, q]) · x1[0, q]`.  The two matrix
  products accumulate into a zero splat, so each is the plain sum over the contracted axis; the
  changes of float format are the identity on the extended reals; the casts to the same shape do
  nothing; a one-row array broadcast over the rows reads its row.
-/
import proofs.«103356_j65481071395578_1_alg».proof.Proof.Gen.KernelIdeal.Skeleton
import proofs.«103356_j65481071395578_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Ffn

/-! ## The first product: 512×768 by 768×3072 -/

theorem lhs_first_0 (i : S512x3072.Idx) (q : dot_S512x768_S768x3072_S512x3072_1_0_0_1_n_n.contr.Idx) :
    (dot_S512x768_S768x3072_S512x3072_1_0_0_1_n_n.lhsIdx i q 0).val = (i 0).val := by
  unfold DotDims.lhsIdx
  rw [dif_neg (show ¬(0 : Fin S512x768.rank) ∈ dot_S512x768_S768x3072_S512x3072_1_0_0_1_n_n.lhsBatch by decide), dif_pos (show (0 : Fin S512x768.rank) ∈ dot_S512x768_S768x3072_S512x3072_1_0_0_1_n_n.lhsNonContracting by decide)]
  rfl
theorem lhs_first_1 (i : S512x3072.Idx) (q : dot_S512x768_S768x3072_S512x3072_1_0_0_1_n_n.contr.Idx) :
    (dot_S512x768_S768x3072_S512x3072_1_0_0_1_n_n.lhsIdx i q 1).val = (q ⟨0, by decide⟩).val :=
  dot_S512x768_S768x3072_S512x3072_1_0_0_1_n_n.lhsIdx_val_of_single rfl i q
theorem rhs_first_0 (i : S512x3072.Idx) (q : dot_S512x768_S768x3072_S512x3072_1_0_0_1_n_n.contr.Idx) :
    (dot_S512x768_S768x3072_S512x3072_1_0_0_1_n_n.rhsIdx i q 0).val = (q ⟨0, by decide⟩).val :=
  dot_S512x768_S768x3072_S512x3072_1_0_0_1_n_n.rhsIdx_val_of_single rfl i q
theorem rhs_first_1 (i : S512x3072.Idx) (q : dot_S512x768_S768x3072_S512x3072_1_0_0_1_n_n.contr.Idx) :
    (dot_S512x768_S768x3072_S512x3072_1_0_0_1_n_n.rhsIdx i q 1).val = (i 1).val := by
  unfold DotDims.rhsIdx
  rw [dif_neg (show ¬(1 : Fin S768x3072.rank) ∈ dot_S512x768_S768x3072_S512x3072_1_0_0_1_n_n.rhsBatch by decide), dif_pos (show (1 : Fin S768x3072.rank) ∈ dot_S512x768_S768x3072_S512x3072_1_0_0_1_n_n.rhsNonContracting by decide)]
  rfl

/-- Entry `(p, f)` of the first product is the sum over the 768 activations of the row. -/
theorem first_apply (l : FVec Ideal S512x768 .bf16) (r : FVec Ideal S768x3072 .bf16) (p : Fin 512) (f : Fin 3072) :
    matmul dot_S512x768_S768x3072_S512x3072_1_0_0_1_n_n none l r (constant S512x3072 .f32 0x00000000#32) (ix2 p f)
      = ∑ q : Fin 768, l (ix2 p q) * r (ix2 q f) := by
  simp only [matmul]
  rw [Ideal.matmul_constant_zero_apply, ← Equiv.sum_comp (ValueIdx.contrEquiv1 dot_S512x768_S768x3072_S512x3072_1_0_0_1_n_n 768 rfl rfl).symm]
  refine Finset.sum_congr rfl fun k _ => ?_
  have hk := ValueIdx.contrEquiv1_symm_val dot_S512x768_S768x3072_S512x3072_1_0_0_1_n_n 768 rfl rfl k
  have el : dot_S512x768_S768x3072_S512x3072_1_0_0_1_n_n.lhsIdx (ix2 p f) ((ValueIdx.contrEquiv1 dot_S512x768_S768x3072_S512x3072_1_0_0_1_n_n 768 rfl rfl).symm k) = ix2 p k := funext fun a => Fin.ext (by
    match a with
    | ⟨0, _⟩ => exact lhs_first_0 _ _
    | ⟨1, _⟩ => exact (lhs_first_1 _ _).trans hk)
  have er : dot_S512x768_S768x3072_S512x3072_1_0_0_1_n_n.rhsIdx (ix2 p f) ((ValueIdx.contrEquiv1 dot_S512x768_S768x3072_S512x3072_1_0_0_1_n_n 768 rfl rfl).symm k) = ix2 k f := funext fun a => Fin.ext (by
    match a with
    | ⟨0, _⟩ => exact (rhs_first_0 _ _).trans hk
    | ⟨1, _⟩ => exact rhs_first_1 _ _)
  rw [el, er]

/-! ## The second product: 512×3072 by 3072×768 -/

theorem lhs_second_0 (i : S512x768.Idx) (q : dot_S512x3072_S3072x768_S512x768_1_0_0_1_n_n.contr.Idx) :
    (dot_S512x3072_S3072x768_S512x768_1_0_0_1_n_n.lhsIdx i q 0).val = (i 0).val := by
  unfold DotDims.lhsIdx
  rw [dif_neg (show ¬(0 : Fin S512x3072.rank) ∈ dot_S512x3072_S3072x768_S512x768_1_0_0_1_n_n.lhsBatch by decide), dif_pos (show (0 : Fin S512x3072.rank) ∈ dot_S512x3072_S3072x768_S512x768_1_0_0_1_n_n.lhsNonContracting by decide)]
  rfl
theorem lhs_second_1 (i : S512x768.Idx) (q : dot_S512x3072_S3072x768_S512x768_1_0_0_1_n_n.contr.Idx) :
    (dot_S512x3072_S3072x768_S512x768_1_0_0_1_n_n.lhsIdx i q 1).val = (q ⟨0, by decide⟩).val :=
  dot_S512x3072_S3072x768_S512x768_1_0_0_1_n_n.lhsIdx_val_of_single rfl i q
theorem rhs_second_0 (i : S512x768.Idx) (q : dot_S512x3072_S3072x768_S512x768_1_0_0_1_n_n.contr.Idx) :
    (dot_S512x3072_S3072x768_S512x768_1_0_0_1_n_n.rhsIdx i q 0).val = (q ⟨0, by decide⟩).val :=
  dot_S512x3072_S3072x768_S512x768_1_0_0_1_n_n.rhsIdx_val_of_single rfl i q
theorem rhs_second_1 (i : S512x768.Idx) (q : dot_S512x3072_S3072x768_S512x768_1_0_0_1_n_n.contr.Idx) :
    (dot_S512x3072_S3072x768_S512x768_1_0_0_1_n_n.rhsIdx i q 1).val = (i 1).val := by
  unfold DotDims.rhsIdx
  rw [dif_neg (show ¬(1 : Fin S3072x768.rank) ∈ dot_S512x3072_S3072x768_S512x768_1_0_0_1_n_n.rhsBatch by decide), dif_pos (show (1 : Fin S3072x768.rank) ∈ dot_S512x3072_S3072x768_S512x768_1_0_0_1_n_n.rhsNonContracting by decide)]
  rfl

/-- Entry `(p, e)` of the second product is the sum over the 3072 hidden features of the row. -/
theorem second_apply (l : FVec Ideal S512x3072 .bf16) (r : FVec Ideal S3072x768 .bf16) (p : Fin 512) (e : Fin 768) :
    matmul dot_S512x3072_S3072x768_S512x768_1_0_0_1_n_n none l r (constant S512x768 .f32 0x00000000#32) (ix2 p e)
      = ∑ f : Fin 3072, l (ix2 p f) * r (ix2 f e) := by
  simp only [matmul]
  rw [Ideal.matmul_constant_zero_apply, ← Equiv.sum_comp (ValueIdx.contrEquiv1 dot_S512x3072_S3072x768_S512x768_1_0_0_1_n_n 3072 rfl rfl).symm]
  refine Finset.sum_congr rfl fun k _ => ?_
  have hk := ValueIdx.contrEquiv1_symm_val dot_S512x3072_S3072x768_S512x768_1_0_0_1_n_n 3072 rfl rfl k
  have el : dot_S512x3072_S3072x768_S512x768_1_0_0_1_n_n.lhsIdx (ix2 p e) ((ValueIdx.contrEquiv1 dot_S512x3072_S3072x768_S512x768_1_0_0_1_n_n 3072 rfl rfl).symm k) = ix2 p k := funext fun a => Fin.ext (by
    match a with
    | ⟨0, _⟩ => exact lhs_second_0 _ _
    | ⟨1, _⟩ => exact (lhs_second_1 _ _).trans hk)
  have er : dot_S512x3072_S3072x768_S512x768_1_0_0_1_n_n.rhsIdx (ix2 p e) ((ValueIdx.contrEquiv1 dot_S512x3072_S3072x768_S512x768_1_0_0_1_n_n 3072 rfl rfl).symm k) = ix2 k e := funext fun a => Fin.ext (by
    match a with
    | ⟨0, _⟩ => exact (rhs_second_0 _ _).trans hk
    | ⟨1, _⟩ => exact rhs_second_1 _ _)
  rw [el, er]

/-! ## The stored value at an index -/

/-- At row `p`, column `e` the body stores the token function of row `p`'s activations
    `cos (x0[p, q]) · x1[0, q]`, with the weights and the bias rows as loaded. -/
theorem stored_apply (x0 : Vec Ideal S512x768 .f32) (x1 : Vec Ideal S1x768 .f32) (x2 : Vec Ideal S768x3072 .bf16)
    (x3 : Vec Ideal S1x3072 .f32) (x4 : Vec Ideal S3072x768 .bf16) (x5 : Vec Ideal S1x768 .f32) (p : Fin 512) (e : Fin 768) :
    k0_pay1 (F := Ideal) x0 x1 x2 x3 x4 x5 (ix2 p e)
      = tokenOut (fun q => Ideal.cos (x0 (ix2 p q)) * x1 (ix2 (0 : Fin 1) q)) x2 (fun f => x3 (ix2 (0 : Fin 1) f)) x4
          (fun e' => x5 (ix2 (0 : Fin 1) e')) e := by
  unfold k0_pay1
  simp only [shapeCast_self]
  rw [addf_apply, second_apply, broadcastTo_1b_ab_apply]
  unfold tokenOut
  refine congrArg (· + x5 (ix2 (0 : Fin 1) e)) (Finset.sum_congr rfl fun f _ => ?_)
  refine congrArg (· * x4 (ix2 f e)) ?_
  rw [truncf_apply, maximumf_apply, addf_apply, first_apply, broadcastTo_1b_ab_apply]
  unfold rectified
  refine congrArg₂ max (congrArg (· + x3 (ix2 (0 : Fin 1) f)) (Finset.sum_congr rfl fun q _ => ?_)) rfl
  refine congrArg (· * x2 (ix2 q f)) ?_
  rw [truncf_apply, mulf_apply, broadcastTo_1b_ab_apply]
  rfl

end Cert.KernelIdeal.Body

end
-- ==== Proof.Entry.lean ====
/-
  The arrays the kernel region finds, read at an index.

  Before the region the host lays the inputs out for the kernel: the input tensor flattened to
  16384 rows (row `r` is token `(r / 2048, r mod 2048)`), the cosines of the angles as one row, the
  two weight matrices changed to the narrower float format (the identity on the extended reals),
  and each bias as one row.  Each of these arrays, read at an index, is an entry of an argument
  array.
-/
import proofs.«103356_j65481071395578_1_alg».proof.Proof.Gen.KernelIdeal.Frame
import proofs.«103356_j65481071395578_1_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.Ffn

variable (m : (ℓ : Loc nD τ sig) → Buf (Elt Ideal) ℓ)

/-! ## The argument arrays, named at their literal types -/

abbrev argX (c : Dev nD) : S8x2048x768.Idx → EReal := m ((c : Thread nD τ).loc main_arg0)
abbrev argTheta (c : Dev nD) : S768.Idx → EReal := m ((c : Thread nD τ).loc main_arg1)
abbrev argW1 (c : Dev nD) : S768x3072.Idx → EReal := m ((c : Thread nD τ).loc main_arg2)
abbrev argB1 (c : Dev nD) : S3072.Idx → EReal := m ((c : Thread nD τ).loc main_arg3)
abbrev argW2 (c : Dev nD) : S3072x768.Idx → EReal := m ((c : Thread nD τ).loc main_arg4)
abbrev argB2 (c : Dev nD) : S768.Idx → EReal := m ((c : Thread nD τ).loc main_arg5)

/-! ## The arrays at the region's entry, named at their literal types -/

abbrev rows (c : Dev nD) : S16384x768.Idx → EReal := V m c main_v0
abbrev cosRow (c : Dev nD) : S1x768.Idx → EReal := V m c main_v2
abbrev w1 (c : Dev nD) : S768x3072.Idx → EReal := V m c main_v3
abbrev b1Row (c : Dev nD) : S1x3072.Idx → EReal := V m c main_v5
abbrev w2 (c : Dev nD) : S3072x768.Idx → EReal := V m c main_v4
abbrev b2Row (c : Dev nD) : S1x768.Idx → EReal := V m c main_v6

/-! ## Each as the host operations' term -/

theorem rows_eq (c : Dev nD) : rows m c = shapeCast S16384x768 (argX m c) shapeCasts_S8x2048x768_S16384x768 := by
  show StableHlo.after hostOps0 (fun b => m (c, b)) (Proc.devRef .tc main_v0) = _
  after_results
  rfl

theorem cosRow_eq (c : Dev nD) : cosRow m c = shapeCast S1x768 (Host.cos (F := Ideal) (φ := .f32) (argTheta m c)) shapeCasts_S768_S1x768 := by
  show StableHlo.after hostOps0 (fun b => m (c, b)) (Proc.devRef .tc main_v2) = _
  after_results
  rfl

theorem w1_eq (c : Dev nD) : w1 m c = argW1 m c := by
  show StableHlo.after hostOps0 (fun b => m (c, b)) (Proc.devRef .tc main_v3) = _
  after_results
  rfl

theorem b1Row_eq (c : Dev nD) : b1Row m c = shapeCast S1x3072 (argB1 m c) shapeCasts_S3072_S1x3072 := by
  show StableHlo.after hostOps0 (fun b => m (c, b)) (Proc.devRef .tc main_v5) = _
  after_results
  rfl

theorem w2_eq (c : Dev nD) : w2 m c = argW2 m c := by
  show StableHlo.after hostOps0 (fun b => m (c, b)) (Proc.devRef .tc main_v4) = _
  after_results
  rfl

theorem b2Row_eq (c : Dev nD) : b2Row m c = shapeCast S1x768 (argB2 m c) shapeCasts_S768_S1x768 := by
  show StableHlo.after hostOps0 (fun b => m (c, b)) (Proc.devRef .tc main_v6) = _
  after_results
  rfl

/-! ## Each read at an index -/

/-- Row `r` of the flattened input is token `(r / 2048, r mod 2048)`. -/
theorem rows_apply (c : Dev nD) (r : Fin 16384) (q : Fin 768) :
    rows m c (ix2 r q) = argX m c (ix3 (tokB r) (tokS r) q) := by
  rw [rows_eq]
  refine shapeCast_apply _ _ _ _ ?_
  rw [Shape.rowMajor_val_three, Shape.rowMajor_val_two]
  show ((r.val / 2048) * 2048 + r.val % 2048) * 768 + q.val = r.val * 768 + q.val
  have := Nat.div_add_mod r.val 2048
  omega

/-- The prepared row of cosines holds the cosine of each angle. -/
theorem cosRow_apply (c : Dev nD) (q : Fin 768) : cosRow m c (ix2 (0 : Fin 1) q) = Ideal.cos (argTheta m c (ix1 q)) := by
  rw [cosRow_eq, shapeCast_a_1a_apply]
  rfl

/-- The first bias as a row. -/
theorem b1Row_apply (c : Dev nD) (f : Fin 3072) : b1Row m c (ix2 (0 : Fin 1) f) = argB1 m c (ix1 f) := by
  rw [b1Row_eq, shapeCast_a_1a_apply]

/-- The second bias as a row. -/
theorem b2Row_apply (c : Dev nD) (e : Fin 768) : b2Row m c (ix2 (0 : Fin 1) e) = argB2 m c (ix1 e) := by
  rw [b2Row_eq, shapeCast_a_1a_apply]

/-- The layer over the arrays the region finds is the layer of the argument arrays. -/
theorem prepared_entry (c : Dev nD) (r : Fin 16384) (e : Fin 768) :
    prepared (rows m c) (cosRow m c) (w1 m c) (b1Row m c) (w2 m c) (b2Row m c) r e
      = flat (argX m c) (argTheta m c) (argW1 m c) (argB1 m c) (argW2 m c) (argB2 m c) r e := by
  rw [w1_eq, w2_eq]
  exact prepared_eq_flat _ _ _ _ _ _ _ _ _ _ (rows_apply m c) (cosRow_apply m c) (b1Row_apply m c) (b2Row_apply m c) r e

end Cert.KernelIdeal.Entry

end
-- ==== Proof.Blocks.lean ====
/-
  From the blocks the grid points write back to the region's whole output array.

  The grid has 32 points.  Point `t` reads rows `512·t … 512·t + 511` of the flattened input and
  the five other arrays whole, and writes back rows `512·t … 512·t + 511` of the output.  What it
  writes at row `p` of its block and column `e` is the token function of flattened row
  `512·t + p`; so each written block is the restriction of ONE function of the whole array index,
  and since the 32 blocks of 512 rows cover all 16384 rows the output array ends as that function.
-/
import proofs.«103356_j65481071395578_1_alg».proof.Proof.Gen.KernelIdeal.Frame
import proofs.«103356_j65481071395578_1_alg».proof.Proof.Payload
import proofs.«103356_j65481071395578_1_alg».proof.Proof.Entry
import Idealize.ShloMosaic.Lib.Pipeline.Value
import Idealize.ShloMosaic.Lib.ValueIdx

noncomputable section

namespace Cert.KernelIdeal.Blocks

open Cert.KernelIdeal Cert.KernelIdeal.Gen Cert.KernelIdeal.Body Cert.KernelIdeal.Entry
open Idealize.ShloMosaic Idealize.ShloMosaic.TcCoe Idealize.SL.Sem Idealize.ShloMosaic.ValueIdx Cert.Ffn
open Idealize.ShloMosaic.Pipeline (Dat Cfg Window)

variable (m : (ℓ : Loc nD τ sig) → Buf (Elt Ideal) ℓ)

theorem offsets_zero : (![0, 0] : Fin 2 → Nat) = fun _ => 0 := funext fun a => by fin_cases a <;> rfl

theorem point_lt (t : Fin cfg0.N) : t.val < 32 := lt_of_lt_of_eq t.isLt N_0

/-- The flattened row that row `p` of point `t`'s block is. -/
def rowAt (t : Fin cfg0.N) (p : Fin 512) : Fin 16384 :=
  ⟨t.val * 512 + p.val, by have := point_lt t; have := p.isLt; omega⟩

/-- The region's output as ONE function of the array index: the prepared layer of the arrays the
    region finds. -/
def regionOut (c : Dev nD) : S16384x768.Idx → EReal := fun j =>
  prepared (rows m c) (cosRow m c) (w1 m c) (b1Row m c) (w2 m c) (b2Row m c) (j 0) (j 1)

/-- The printed index maps over the grid: the input rows and the output move with the point along
    the rows and stay at column block 0; the other five windows stay at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Every row block is some point's. -/
theorem block_onto : ∀ q : Fin 32, ∃ t : Fin cfg0.N, t.val = q.val :=
  fun q => ⟨⟨q.val, lt_of_lt_of_eq q.isLt N_0.symm⟩, rfl⟩

/-! ## The input blocks at a point -/

/-- Row `p` of point `t`'s input block is flattened row `512·t + p`. -/
theorem inRows_apply (c : Dev nD) (t : Fin cfg0.N) (p : Fin 512) (q : Fin 768) :
    (iblk m c 0 t : S512x768.Idx → EReal) (ix2 p q) = rows m c (ix2 (rowAt t p) q) := by
  show V m c main_v0 (((cfg0.win 0).blk t).view.emb (ix2 p q)) = V m c main_v0 (ix2 (rowAt t p) q)
  refine congrArg _ (funext fun a => Fin.ext ?_)
  obtain ⟨e0, e1, -⟩ := block_indices t
  match a with
  | ⟨0, _⟩ => show win0_0.index t (0 : Fin 2) * 512 + 1 * p.val = t.val * 512 + p.val; omega
  | ⟨1, _⟩ => show win0_0.index t (1 : Fin 2) * 768 + 1 * q.val = q.val; omega

/-- The row of cosines is read whole at every point. -/
theorem inCos_eq (c : Dev nD) (t : Fin cfg0.N) : (iblk m c 1 t : S1x768.Idx → EReal) = cosRow m c := by
  funext y
  show V m c main_v2 (((cfg0.win 1).blk t).view.emb y) = V m c main_v2 y
  refine congrArg _ (funext fun a => Fin.ext ?_)
  obtain ⟨-, -, e0, e1, -⟩ := block_indices t
  match a with
  | ⟨0, _⟩ => show win0_1.index t (0 : Fin 2) * 1 + 1 * (y 0).val = (y 0).val; omega
  | ⟨1, _⟩ => show win0_1.index t (1 : Fin 2) * 768 + 1 * (y 1).val = (y 1).val; omega

/-- The first weight matrix is read whole at every point. -/
theorem inW1_eq (c : Dev nD) (t : Fin cfg0.N) : (iblk m c 2 t : S768x3072.Idx → EReal) = w1 m c := by
  funext y
  show V m c main_v3 (((cfg0.win 2).blk t).view.emb y) = V m c main_v3 y
  refine congrArg _ (funext fun a => Fin.ext ?_)
  obtain ⟨-, -, -, -, e0, e1, -⟩ := block_indices t
  match a with
  | ⟨0, _⟩ => show win0_2.index t (0 : Fin 2) * 768 + 1 * (y 0).val = (y 0).val; omega
  | ⟨1, _⟩ => show win0_2.index t (1 : Fin 2) * 3072 + 1 * (y 1).val = (y 1).val; omega

/-- The first bias row is read whole at every point. -/
theorem inB1_eq (c : Dev nD) (t : Fin cfg0.N) : (iblk m c 3 t : S1x3072.Idx → EReal) = b1Row m c := by
  funext y
  show V m c main_v5 (((cfg0.win 3).blk t).view.emb y) = V m c main_v5 y
  refine congrArg _ (funext fun a => Fin.ext ?_)
  obtain ⟨-, -, -, -, -, -, e0, e1, -⟩ := block_indices t
  match a with
  | ⟨0, _⟩ => show win0_3.index t (0 : Fin 2) * 1 + 1 * (y 0).val = (y 0).val; omega
  | ⟨1, _⟩ => show win0_3.index t (1 : Fin 2) * 3072 + 1 * (y 1).val = (y 1).val; omega

/-- The second weight matrix is read whole at every point. -/
theorem inW2_eq (c : Dev nD) (t : Fin cfg0.N) : (iblk m c 4 t : S3072x768.Idx → EReal) = w2 m c := by
  funext y
  show V m c main_v4 (((cfg0.win 4).blk t).view.emb y) = V m c main_v4 y
  refine congrArg _ (funext fun a => Fin.ext ?_)
  obtain ⟨-, -, -, -, -, -, -, -, e0, e1, -⟩ := block_indices t
  match a with
  | ⟨0, _⟩ => show win0_4.index t (0 : Fin 2) * 3072 + 1 * (y 0).val = (y 0).val; omega
  | ⟨1, _⟩ => show win0_4.index t (1 : Fin 2) * 768 + 1 * (y 1).val = (y 1).val; omega

/-- The second bias row is read whole at every point. -/
theorem inB2_eq (c : Dev nD) (t : Fin cfg0.N) : (iblk m c 5 t : S1x768.Idx → EReal) = b2Row m c := by
  funext y
  show V m c main_v6 (((cfg0.win 5).blk t).view.emb y) = V m c main_v6 y
  refine congrArg _ (funext fun a => Fin.ext ?_)
  obtain ⟨-, -, -, -, -, -, -, -, -, -, e0, e1, -⟩ := block_indices t
  match a with
  | ⟨0, _⟩ => show win0_5.index t (0 : Fin 2) * 1 + 1 * (y 0).val = (y 0).val; omega
  | ⟨1, _⟩ => show win0_5.index t (1 : Fin 2) * 768 + 1 * (y 1).val = (y 1).val; omega

/-! ## What a point leaves in the output buffer -/

/-- The token function depends on its activations and bias rows only through their values. -/
theorem tokenOut_congr {a a' : Fin 768 → EReal} {W1 W1' : (⟨2, ![768, 3072]⟩ : Shape).Idx → EReal} {c1 c1' : Fin 3072 → EReal}
    {W2 W2' : (⟨2, ![3072, 768]⟩ : Shape).Idx → EReal} {c2 c2' : Fin 768 → EReal} (ha : a = a') (hW1 : W1 = W1') (hc1 : c1 = c1')
    (hW2 : W2 = W2') (hc2 : c2 = c2') (e : Fin 768) : tokenOut a W1 c1 W2 c2 e = tokenOut a' W1' c1' W2' c2' e := by
  subst ha hW1 hc1 hW2 hc2; rfl

/-- At row `p`, column `e` point `t` leaves the prepared layer at flattened row `512·t + p`. -/
theorem left_apply (c : Dev nD) (t : Fin cfg0.N) (p : Fin 512) (e : Fin 768) :
    out0_6 (F := Ideal) (iblk m c 0 t) (iblk m c 1 t) (iblk m c 2 t) (iblk m c 3 t) (iblk m c 4 t) (iblk m c 5 t) (ix2 p e)
      = prepared (rows m c) (cosRow m c) (w1 m c) (b1Row m c) (w2 m c) (b2Row m c) (rowAt t p) e := by
  unfold out0_6
  rw [View.canon_unit_zero offsets_zero]
  simp only [View.ld_unit_zero (S := S512x768) offsets_zero, View.ld_unit_zero (S := S1x768) offsets_zero,
    View.ld_unit_zero (S := S768x3072) offsets_zero, View.ld_unit_zero (S := S1x3072) offsets_zero,
    View.ld_unit_zero (S := S3072x768) offsets_zero]
  refine (stored_apply (iblk m c 0 t) (iblk m c 1 t) (iblk m c 2 t) (iblk m c 3 t) (iblk m c 4 t) (iblk m c 5 t) p e).trans ?_
  unfold prepared
  refine tokenOut_congr (funext fun q => ?_) (inW1_eq m c t) (funext fun f => ?_) (inW2_eq m c t) (funext fun e' => ?_) e
  · exact congrArg₂ (fun u v => Ideal.cos u * v) (inRows_apply m c t p q) (congrFun (inCos_eq m c t) _)
  · exact congrFun (inB1_eq m c t) _
  · exact congrFun (inB2_eq m c t) _

/-- WHAT POINT `t` WRITES BACK is block `t` of the region's output function. -/
theorem flushed_eq (c : Dev nD) (t : Fin cfg0.N) :
    (dats m 0 c).flushed 6 t = ((cfg0.win 6).blk t).view.read (Elt Ideal) (regionOut m c) := by
  show (cfg0.win 6).cut (grid0.coords t) ((dats m 0 c).after 6 t) = _
  rw [after0_6]
  funext j
  obtain ⟨p, e, rfl⟩ : ∃ (p : Fin 512) (e : Fin 768), j = ix2 p e := ⟨j 0, j 1, eq_ix2 j⟩
  show out0_6 (F := Ideal) (iblk m c 0 t) (iblk m c 1 t) (iblk m c 2 t) (iblk m c 3 t) (iblk m c 4 t) (iblk m c 5 t) (ix2 p e)
    = regionOut m c (((cfg0.win 6).blk t).view.emb (ix2 p e))
  refine (left_apply m c t p e).trans ?_
  have hemb : ((cfg0.win 6).blk t).view.emb (ix2 p e) = ix2 (rowAt t p) e := by
    funext a; apply Fin.ext
    obtain ⟨-, -, -, -, -, -, -, -, -, -, -, -, e0, e1⟩ := block_indices t
    match a with
    | ⟨0, _⟩ => show win0_6.index t (0 : Fin 2) * 512 + 1 * p.val = t.val * 512 + p.val; omega
    | ⟨1, _⟩ => show win0_6.index t (1 : Fin 2) * 768 + 1 * e.val = e.val; omega
  rw [hemb]
  rfl

/-! ## The blocks cover the array -/

/-- An index of the array is in point `t`'s block iff each coordinate is in the block's range on its axis. -/
theorem mem_block (t : Fin cfg0.N) (i : S16384x768.Idx) :
    i ∈ ((cfg0.win 6).blk t).view.set ↔ ∀ a : Fin 2, win0_6.index t a * S512x768.size a ≤ (i a).val ∧ (i a).val < win0_6.index t a * S512x768.size a + S512x768.size a := by
  show i ∈ ((View.whole main_v7).slice (win0_6.rect t)).set ↔ _
  rw [View.set_slice_whole, Rect.mem_set_unit]
  exact Iff.rfl

/-- Every index of the output array is in the block of the point its row falls in, `row / 512`. -/
theorem covered (i : S16384x768.Idx) :
    ∃ t : Fin cfg0.N, (cfg0.win 6).flush t = true ∧ i ∈ ((cfg0.win 6).blk t).view.set := by
  have hi0 : (i 0).val < 16384 := (i 0).isLt
  have hi1 : (i 1).val < 768 := (i 1).isLt
  obtain ⟨t, ht⟩ := block_onto ⟨(i 0).val / 512, by omega⟩
  have ht' : t.val = (i 0).val / 512 := ht
  obtain ⟨-, -, -, -, -, -, -, -, -, -, -, -, e0, e1⟩ := block_indices t
  refine ⟨t, flush0_6 t, ?_⟩
  rw [mem_block]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 768 ≤ (i 1).val ∧ (i 1).val < win0_6.index t (1 : Fin 2) * 768 + 768; omega

/-- THE OUTPUT ARRAY after the region is the region's output function. -/
theorem final (c : Dev nD) : (dats m 0 c).arrAt 6 cfg0.N = regionOut m c :=
  (dats m 0 c).arrAt_eq_of_cover 6 (regionOut m c) (fun t _ => flushed_eq m c t) covered

end Cert.KernelIdeal.Blocks

end
-- ==== Proof.KernelRun.lean ====
/-
  The kernel program's run, with its result named.

  After the region the host reshapes the 16384×768 output array to 8×2048×768: entry `(b, s, e)`
  of the result is entry `(b · 2048 + s, e)` of the region's output, the two having the same
  row-major position.  The region's output array is the prepared layer of the arrays the region
  found, which is the layer of the argument arrays read at flattened rows; so the result is the
  layer, index by index.
-/
import proofs.«103356_j65481071395578_1_alg».proof.Proof.Gen.KernelIdeal.Frame
import proofs.«103356_j65481071395578_1_alg».proof.Proof.Blocks
import Idealize.ShloMosaic.Lib.StableHlo.Run
import Idealize.ShloMosaic.Lib.Pipeline.Value
import Idealize.ShloMosaic.Lib.ValueIdx

noncomputable section

namespace Cert.KernelIdeal.Result

open Cert.KernelIdeal Cert.KernelIdeal.Gen Cert.KernelIdeal.Entry Cert.KernelIdeal.Blocks
open Idealize.ShloMosaic Idealize.ShloMosaic.TcCoe Idealize.SL.Sem Idealize.ShloMosaic.StableHlo
open Idealize.ShloMosaic.ValueIdx Cert.Ffn

variable (m : (ℓ : Loc nD τ sig) → Buf (Elt Ideal) ℓ) (ρ : Dev nD → PrngReg)

/-- The result buffer after the host's closing reshape: the region's output array at the result's shape. -/
theorem tail_eq (c : Dev nD) :
    Pipeline.afterTail₀ cfgs (dats m) 0 (V0 m) [hostOps1] c main_v8
      = shapeCast S8x2048x768 (regionOut m c) shapeCasts_S16384x768_S8x2048x768 := by
  unfold Pipeline.afterTail₀
  show StableHlo.after hostOps1 _ (Proc.devRef .tc main_v8) = _
  after_results
  have harr := (Pipeline.withArrays_arr spec0 launch0.win.arr_inj c (V0 m c) (fun w => (dats m 0 c).arrAt w cfg0.N) 6).trans (final m c)
  exact congrArg (fun A : S16384x768.Idx → EReal => shapeCast S8x2048x768 A shapeCasts_S16384x768_S8x2048x768) harr

/-- Entry `(b, s, e)` of the reshaped array is entry `(b · 2048 + s, e)` of the flat one. -/
theorem unflatten_apply (A : S16384x768.Idx → EReal) (b : Fin 8) (s : Fin 2048) (e : Fin 768) :
    shapeCast S8x2048x768 A shapeCasts_S16384x768_S8x2048x768 (ix3 b s e) = A (ix2 (rowOf b s) e) := by
  refine shapeCast_apply _ _ _ _ ?_
  rw [Shape.rowMajor_val_two, Shape.rowMajor_val_three]
  rfl

/-- THE KERNEL'S RESULT is the layer of the argument arrays. -/
theorem result_eq (c : Dev nD) :
    Pipeline.afterTail₀ cfgs (dats m) 0 (V0 m) [hostOps1] c main_v8
      = layer (argX m c) (argTheta m c) (argW1 m c) (argB1 m c) (argW2 m c) (argB2 m c) := by
  rw [tail_eq]
  funext i
  obtain ⟨b, s, e, rfl⟩ : ∃ (b : Fin 8) (s : Fin 2048) (e : Fin 768), i = ix3 b s e := ⟨i 0, i 1, i 2, eq_ix3 i⟩
  rw [unflatten_apply, layer_eq_flat]
  exact prepared_entry m c (rowOf b s) e

/-- The frame run re-posted: the result buffer at the layer of the arguments, the arguments unchanged. -/
theorem run : θ_run defs (onTc (τ := τ) (main (F := Ideal))) ⟨m, fun _ => 0, ρ⟩ fun r => ∀ c : Dev nD,
      r.2.mem ((c.tc : Thread nD τ).loc main_v8) = layer (argX m c) (argTheta m c) (argW1 m c) (argB1 m c) (argW2 m c) (argB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨((h c).2 main_v8 (Pipeline.mem_restRefs_of main_v8 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c),
       ((h c).2 main_arg5 (Pipeline.mem_restRefs_of main_arg5 (by decide) (by decide))).trans (W_main_arg5 m (dats m) c)⟩)
    (run_main m ρ)

end Cert.KernelIdeal.Result

end
-- ==== Proof.RefValue.lean ====
/-
  The reference computes the layer.

  Read one operation at a time, the reference's result at index `(b, s, e)` is the sum over the
  3072 hidden features `f` of `max (∑ q, (cos x[b,s,q] · cos θ[q]) · W1[q,f] + b1[f]) 0 · W2[f,e]`,
  plus `b2[e]`: its two `dot_general`s are sums over the contracted axis, its broadcasts read
  the broadcast operand at the trailing coordinate, and its rectifier is the maximum with the
  zero word.  That is the layer's definition, index by index.
-/
import proofs.«103356_j65481071395578_1_alg».proof.Proof.Gen.ReferenceIdeal.Read
import proofs.«103356_j65481071395578_1_alg».proof.Proof.Spec
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.Ffn

/-! ## The reference's composed index functions are the coordinate constructors -/

theorem lhs_second (b : Fin 8) (s : Fin 2048) (e : Fin 768) (f : Fin 3072) :
    lidx_main_v10 (ix3 b s e) f = ix3 b s f :=
  funext fun a => Fin.ext (by match a with | ⟨0, _⟩ => rfl | ⟨1, _⟩ => rfl | ⟨2, _⟩ => rfl)
theorem rhs_second (b : Fin 8) (s : Fin 2048) (e : Fin 768) (f : Fin 3072) :
    ridx_main_v10 (ix3 b s e) f = ix2 f e :=
  funext fun a => Fin.ext (by match a with | ⟨0, _⟩ => rfl | ⟨1, _⟩ => rfl)
theorem lhs_first (b : Fin 8) (s : Fin 2048) (f : Fin 3072) (q : Fin 768) :
    lidx_main_v5 (ix3 b s f) q = ix3 b s q :=
  funext fun a => Fin.ext (by match a with | ⟨0, _⟩ => rfl | ⟨1, _⟩ => rfl | ⟨2, _⟩ => rfl)
theorem rhs_first (b : Fin 8) (s : Fin 2048) (f : Fin 3072) (q : Fin 768) :
    ridx_main_v5 (ix3 b s f) q = ix2 q f :=
  funext fun a => Fin.ext (by match a with | ⟨0, _⟩ => rfl | ⟨1, _⟩ => rfl)
theorem angle_idx (b : Fin 8) (s : Fin 2048) (q : Fin 768) : idx_main_v2 (idx_main_v3 (ix3 b s q)) = ix1 q :=
  funext fun a => Fin.ext (by match a with | ⟨0, _⟩ => rfl)
theorem bias1_idx (b : Fin 8) (s : Fin 2048) (f : Fin 3072) : idx_main_v6 (idx_main_v7 (ix3 b s f)) = ix1 f :=
  funext fun a => Fin.ext (by match a with | ⟨0, _⟩ => rfl)
theorem bias2_idx (b : Fin 8) (s : Fin 2048) (e : Fin 768) : idx_main_v11 (idx_main_v12 (ix3 b s e)) = ix1 e :=
  funext fun a => Fin.ext (by match a with | ⟨0, _⟩ => rfl)

/-! ## Stage by stage -/

/-- The activations stage at token `(b, s)`, feature `q`. -/
theorem activations_apply (x : FVec Ideal S8x2048x768 .f32) (θ : FVec Ideal S768 .f32) (b : Fin 8) (s : Fin 2048) (q : Fin 768) :
    val_main_v4 (F := Ideal) x θ (ix3 b s q) = act x θ b s q := by
  rw [val_main_v4_apply, val_main_v0_apply, val_main_v3_apply, val_main_v2_apply, val_main_v1_apply, angle_idx]
  rfl

/-- The rectified stage at token `(b, s)`, hidden feature `f`. -/
theorem rectified_apply (x : FVec Ideal S8x2048x768 .f32) (θ : FVec Ideal S768 .f32) (W1 : FVec Ideal S768x3072 .f32)
    (b1 : FVec Ideal S3072 .f32) (b : Fin 8) (s : Fin 2048) (f : Fin 3072) :
    val_main_v9 (F := Ideal) x θ W1 b1 (ix3 b s f) = rectified (act x θ b s) W1 (fun f' => b1 (ix1 f')) f := by
  rw [val_main_v9_apply, val_main_v8_apply, val_main_v5_apply, val_main_v7_apply, val_main_v6_apply, bias1_idx,
    val_main_call0_v0_apply, val_main_call0_cst_apply]
  unfold rectified
  refine congrArg₂ max (congrArg (· + b1 (ix1 f)) (Finset.sum_congr rfl fun q _ => ?_)) rfl
  rw [lhs_first, rhs_first, activations_apply]

/-- THE REFERENCE'S RESULT is the layer of its arguments. -/
theorem result_eq (x : FVec Ideal S8x2048x768 .f32) (θ : FVec Ideal S768 .f32) (W1 : FVec Ideal S768x3072 .f32)
    (b1 : FVec Ideal S3072 .f32) (W2 : FVec Ideal S3072x768 .f32) (b2 : FVec Ideal S768 .f32) :
    val_main_v13 (F := Ideal) x θ W1 b1 W2 b2 = layer x θ W1 b1 W2 b2 := by
  funext i
  obtain ⟨b, s, e, rfl⟩ : ∃ (b : Fin 8) (s : Fin 2048) (e : Fin 768), i = ix3 b s e := ⟨i 0, i 1, i 2, eq_ix3 i⟩
  rw [val_main_v13_apply, val_main_v10_apply, val_main_v12_apply, val_main_v11_apply, bias2_idx]
  show (∑ f : Fin 3072, val_main_v9 (F := Ideal) x θ W1 b1 (lidx_main_v10 (ix3 b s e) f) * W2 (ridx_main_v10 (ix3 b s e) f)) + b2 (ix1 e)
    = tokenOut (act x θ b s) W1 (fun f => b1 (ix1 f)) W2 (fun e' => b2 (ix1 e')) e
  unfold tokenOut
  refine congrArg (· + b2 (ix1 e)) (Finset.sum_congr rfl fun f _ => ?_)
  rw [lhs_second, rhs_second, rectified_apply]

end Cert.ReferenceIdeal.RefValue

end
-- ==== Proof.lean ====
/-
  A feed-forward block on cosine features: for every token `(b, s)` and output feature `e`,

      out[b, s, e] = ∑ f, max (∑ q, (cos x[b,s,q] · cos θ[q]) · W1[q,f] + b1[f]) 0 · W2[f,e] + b2[e].

  The reference computes this with two tensor contractions over the whole 8×2048 batch of tokens.
  The kernel flattens the tokens to 16384 rows, prepares the row of cosines of the angles and the
  bias rows on the host, and runs 32 grid points of 512 rows each: a point forms the activations
  of its rows, multiplies by the first weight matrix into a zero accumulator, adds the bias,
  rectifies, multiplies by the second weight matrix into a zero accumulator and adds the second
  bias; the host then reshapes the rows back to 8×2048 tokens.

  On the extended reals the two are the same function of the arguments, index by index: a change
  of float format is the identity, a product into a zero accumulator is the plain sum over the
  contracted axis, the two cosines and the two maxima are one function each, and a token's value
  depends on its own row only, so cutting the rows into blocks of 512 changes nothing.  No law
  beyond reading both sides at an index is needed; in particular nothing asks the inputs to be
  finite, and the precondition is never opened.

  The modules: Spec (the function, one token at a time, and its flattened form), Payload (what the
  body stores at an index), Entry (the arrays the region finds, at an index), Blocks (the 32
  written blocks cover the output array), KernelRun (the reshaped result and the run), RefValue
  (the reference's stages at an index).  The idealization rewrote no operation, so the
  preservation conjunct is `True`.
-/
import proofs.«103356_j65481071395578_1_alg».proof.Defs
import proofs.«103356_j65481071395578_1_alg».proof.Proof.Gen.Kernel
import proofs.«103356_j65481071395578_1_alg».proof.Proof.Gen.Kernel.Skeleton
import proofs.«103356_j65481071395578_1_alg».proof.Proof.Gen.Kernel.Launch
import proofs.«103356_j65481071395578_1_alg».proof.Proof.Gen.Kernel.Points
import proofs.«103356_j65481071395578_1_alg».proof.Proof.Gen.Kernel.Frame
import proofs.«103356_j65481071395578_1_alg».proof.Proof.Gen.KernelIdeal
import proofs.«103356_j65481071395578_1_alg».proof.Proof.Gen.KernelIdeal.Skeleton
import proofs.«103356_j65481071395578_1_alg».proof.Proof.Gen.KernelIdeal.Launch
import proofs.«103356_j65481071395578_1_alg».proof.Proof.Gen.KernelIdeal.Points
import proofs.«103356_j65481071395578_1_alg».proof.Proof.Gen.KernelIdeal.Frame
import proofs.«103356_j65481071395578_1_alg».proof.Proof.Gen.ReferenceIdeal
import proofs.«103356_j65481071395578_1_alg».proof.Proof.Gen.ReferenceIdeal.Run
import proofs.«103356_j65481071395578_1_alg».proof.Proof.Gen.ReferenceIdeal.Read
import proofs.«103356_j65481071395578_1_alg».proof.Proof.Gen.Pre_finite_inputs
import proofs.«103356_j65481071395578_1_alg».proof.Proof.KernelRun
import proofs.«103356_j65481071395578_1_alg».proof.Proof.RefValue
import Idealize.ShloMosaic.Adequacy
import Idealize.ShloMosaic.Init

noncomputable section

namespace Cert.Proof

open Idealize.ShloMosaic Idealize.SL.Sem Cert.Ffn

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the layer of the arguments in their result buffer: the kernel
    by its run read through the blocks and the closing reshape, the reference by its stages read at
    an index; the arguments agree, so the two results are equal. -/
theorem algebraic : Cert.algebraic_KernelIdeal_ReferenceIdeal := by
  intro m ρ m' ρ' _ hagree
  refine ⟨fun c => layer (Cert.KernelIdeal.Entry.argX m c) (Cert.KernelIdeal.Entry.argTheta m c) (Cert.KernelIdeal.Entry.argW1 m c)
      (Cert.KernelIdeal.Entry.argB1 m c) (Cert.KernelIdeal.Entry.argW2 m c) (Cert.KernelIdeal.Entry.argB2 m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v13_eq _ _ _ _ _ _).trans ?_
  rw [Cert.ReferenceIdeal.RefValue.result_eq]
  obtain ⟨h0, h1, h2, h3, h4, h5⟩ := hagree c
  rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
